-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S128x128 : Shape := ⟨2, ![128, 128]⟩
abbrev S128x1 : Shape := ⟨2, ![128, 1]⟩
abbrev S128 : Shape := ⟨1, ![128]⟩
abbrev S640000 : Shape := ⟨1, ![640000]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S128 : S_.BroadcastsInDim S128 (![] : Fin 0 → Fin S128.rank)
  reducesTo_S128_S_d0 : S128.ReducesTo [0] S_
  bcast_S_S640000 : S_.BroadcastsInDim S640000 (![] : Fin 0 → Fin S640000.rank)
  reducesTo_S640000_S_d0 : S640000.ReducesTo [0] S_

variable [Facts]

def fn_part1 {F : FTy → Type} [FloatOps F] (main_arg4 : FVec F S128 .f32) (main_arg5 : FVec F S640000 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S640000 .f32 := Host.absf main_arg5
  let main_cst_8 : FVec F S_ .f32 := constant S_ .f32 0x7F800000#32
  let main_v25 : FVec F S640000 .f32 := broadcastInDim S640000 ![] bcast_S_S640000 main_cst_8
  let main_v26 : IVec S640000 1 := cmpf .olt main_v24 main_v25
  let main_c_9 : IVec S_ 1 := constantI S_ 1 1#1
  let main_v27 : IVec S_ 1 := (fun x v => Host.reduce IntOp.andi x v reducesTo_S640000_S_d0 h_S_) main_v26 main_c_9
  let main_v28 : IVec S_ 1 := andi main_v23 main_v27
  main_v28

def fn {F : FTy → Type} [FloatOps F] (main_arg0 : FVec F S40000x128 .f32) (main_arg1 : FVec F S128x128 .f32) (main_arg2 : FVec F S128x1 .f32) (main_arg3 : FVec F S128 .f32) (main_arg4 : FVec F S128 .f32) (main_arg5 : FVec F S640000 .f32) (main_arg6 : IVec S640000 32) (main_arg7 : IVec S640000 32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x1 .f32 := Host.absf main_arg2
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S40000x128 : Shape := ⟨2, ![40000, 128]⟩
abbrev S128x128 : Shape := ⟨2, ![128, 128]⟩
abbrev S128x1 : Shape := ⟨2, ![128, 1]⟩
abbrev S128 : Shape := ⟨1, ![128]⟩
abbrev S640000 : Shape := ⟨1, ![640000]⟩
abbrev S_ : Shape := ⟨0, ![]⟩
abbrev S1 : Shape := ⟨1, ![1]⟩
abbrev S1x128 : Shape := ⟨2, ![1, 128]⟩
abbrev S4000x128 : Shape := ⟨2, ![4000, 128]⟩
abbrev S4000 : Shape := ⟨1, ![4000]⟩
abbrev S4000x1 : Shape := ⟨2, ![4000, 1]⟩
abbrev S640000x1 : Shape := ⟨2, ![640000, 1]⟩
abbrev S640000x128 : Shape := ⟨2, ![640000, 128]⟩

abbrev nBuf : Space → Nat
  | .hbm => 44
  | .vmem => 7
  | .smem => 0
  | _ => 0

abbrev bufTy : (tb : Table) → Fin (tcTables nBuf tb) → BufTy
  | .hbm, ⟨0, _⟩ => ⟨S40000x128, .f32⟩
  | .hbm, ⟨1, _⟩ => ⟨S128x128, .f32⟩
  | .hbm, ⟨2, _⟩ => ⟨S128x1, .f32⟩
  | .hbm, ⟨3, _⟩ => ⟨S128, .f32⟩
  | .hbm, ⟨4, _⟩ => ⟨S128, .f32⟩
  | .hbm, ⟨5, _⟩ => ⟨S640000, .f32⟩
  | .hbm, ⟨6, _⟩ => ⟨S640000, .i32⟩
  | .hbm, ⟨7, _⟩ => ⟨S640000, .i32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S_, .f32⟩
  | .hbm, ⟨17, _⟩ => ⟨S_, .f32⟩
  | .hbm, ⟨18, _⟩ => ⟨S1, .f32⟩
  | .hbm, ⟨19, _⟩ => ⟨S128, .f32⟩
  | .hbm, ⟨20, _⟩ => ⟨S128, .f32⟩
  | .hbm, ⟨21, _⟩ => ⟨S1x128, .f32⟩
  | .hbm, ⟨22, _⟩ => ⟨S1x128, .f32⟩
  | .hbm, ⟨23, _⟩ => ⟨S40000x128, .bf16⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x128, .bf16⟩
  | .hbm, ⟨33, _⟩ => ⟨S640000x128, .f32⟩
  | .hbm, ⟨34, _⟩ => ⟨S640000x1, .f32⟩
  | .hbm, ⟨35, _⟩ => ⟨S640000x128, .f32⟩
  | .hbm, ⟨36, _⟩ => ⟨S640000x128, .f32⟩
  | .hbm, ⟨37, _⟩ => ⟨S_, .f32⟩
  | .hbm, ⟨38, _⟩ => ⟨S40000x128, .f32⟩
  | .hbm, ⟨39, _⟩ => ⟨S640000x1, .i32⟩
  | .hbm, ⟨40, _⟩ => ⟨S40000x128, .f32⟩
  | .hbm, ⟨41, _⟩ => ⟨S1x128, .f32⟩
  | .hbm, ⟨42, _⟩ => ⟨S40000x128, .f32⟩
  | .hbm, ⟨43, _⟩ => ⟨S40000x128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S4000x128, .bf16⟩
  | .local _ .vmem, ⟨6, _⟩ => ⟨S4000x128, .bf16⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S128_S_d0 : S128.ReducesTo [0] S_
  h_S_ : 0 < S_.numel
  bcast_S_S1 : S_.BroadcastsInDim S1 (![] : Fin 0 → Fin S1.rank)
  bcast_S1_S128_0 : S1.BroadcastsInDim S128 (![0] : Fin 1 → Fin S128.rank)
  shapeCasts_S128_S1x128 : S128.ShapeCasts S1x128
  transposes_S128x1_S1x128_1_0 : S128x1.Transposes [1, 0] S1x128
  inb_S4000x128_S4000x128_0_0 : ∀ a, (![0, 0] : Fin 2 → Nat) a + S4000x128.size a ≤ S4000x128.size a
  h_S4000x128 : 0 < S4000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  shapeCasts_S4000_S4000x1 : S4000.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  packedbf16_S4000x128_S4000x128_0_0 : (Rect.unit (s := S4000x128) ![0, 0] S4000x128.size inb_S4000x128_S4000x128_0_0).PackedRows (EltTy.packing .bf16)
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  dot_S4000x128_S128x128_S4000x128_1_0_0_1_n_n_wf : DotDims.WF S4000x128 S128x128 S4000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .f32 = 32 ∨ (Rect.block (s := S40000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S40000x128.size a
  hwx0_4 : ∀ i : grid0.Coords, EltTy.bits .bf16 = 32 ∨ (Rect.block (s := S40000x128) S4000x128.size (cc0_transform_4 i) (hinb0_4 i)).WholeWords (EltTy.packing .bf16)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S40000x128 : Shape := ⟨2, ![40000, 128]⟩
abbrev S128x128 : Shape := ⟨2, ![128, 128]⟩
abbrev S128x1 : Shape := ⟨2, ![128, 1]⟩
abbrev S128 : Shape := ⟨1, ![128]⟩
abbrev S640000 : Shape := ⟨1, ![640000]⟩
abbrev S40000x1 : Shape := ⟨2, ![40000, 1]⟩
abbrev S_ : Shape := ⟨0, ![]⟩
abbrev S1 : Shape := ⟨1, ![1]⟩
abbrev S1x128 : Shape := ⟨2, ![1, 128]⟩
abbrev S640000x1 : Shape := ⟨2, ![640000, 1]⟩
abbrev S640000x128 : Shape := ⟨2, ![640000, 128]⟩

abbrev nBuf : Space → Nat
  | .hbm => 55
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S128x128, .f32⟩
  | .hbm, ⟨2, _⟩ => ⟨S128x1, .f32⟩
  | .hbm, ⟨3, _⟩ => ⟨S128, .f32⟩
  | .hbm, ⟨4, _⟩ => ⟨S128, .f32⟩
  | .hbm, ⟨5, _⟩ => ⟨S640000, .f32⟩
  | .hbm, ⟨6, _⟩ => ⟨S640000, .i32⟩
  | .hbm, ⟨7, _⟩ => ⟨S640000, .i32⟩
  | .hbm, ⟨8, _⟩ => ⟨S40000x1, .f32⟩
  | .hbm, ⟨9, _⟩ => ⟨S40000x1, .f32⟩
  | .hbm, ⟨10, _⟩ => ⟨S40000x1, .f32⟩
  | .hbm, ⟨11, _⟩ => ⟨S_, .f32⟩
  | .hbm, ⟨12, _⟩ => ⟨S40000x1, .f32⟩
  | .hbm, ⟨13, _⟩ => ⟨S40000x1, .f32⟩
  | .hbm, ⟨14, _⟩ => ⟨S_, .f32⟩
  | .hbm, ⟨15, _⟩ => ⟨S40000x1, .f32⟩
  | .hbm, ⟨16, _⟩ => ⟨S40000x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S_, .f32⟩
  | .hbm, ⟨26, _⟩ => ⟨S_, .f32⟩
  | .hbm, ⟨27, _⟩ => ⟨S1, .f32⟩
  | .hbm, ⟨28, _⟩ => ⟨S128, .f32⟩
  | .hbm, ⟨29, _⟩ => ⟨S128, .f32⟩
  | .hbm, ⟨30, _⟩ => ⟨S40000x128, .f32⟩
  | .hbm, ⟨31, _⟩ => ⟨S40000x128, .f32⟩
  | .hbm, ⟨32, _⟩ => ⟨S1x128, .f32⟩
  | .hbm, ⟨33, _⟩ => ⟨S40000x128, .f32⟩
  | .hbm, ⟨34, _⟩ => ⟨S40000x128, .f32⟩
  | .hbm, ⟨35, _⟩ => ⟨S40000x128, .f32⟩
  | .hbm, ⟨36, _⟩ => ⟨S_, .i32⟩
  | .hbm, ⟨37, _⟩ => ⟨S640000, .i32⟩
  | .hbm, ⟨38, _⟩ => ⟨S640000, .i1⟩
  | .hbm, ⟨39, _⟩ => ⟨S_, .i32⟩
  | .hbm, ⟨40, _⟩ => ⟨S640000, .i32⟩
  | .hbm, ⟨41, _⟩ => ⟨S640000, .i32⟩
  | .hbm, ⟨42, _⟩ => ⟨S640000, .i32⟩
  | .hbm, ⟨43, _⟩ => ⟨S640000x1, .i32⟩
  | .hbm, ⟨44, _⟩ => ⟨S640000x128, .f32⟩
  | .hbm, ⟨45, _⟩ => ⟨S640000x1, .f32⟩
  | .hbm, ⟨46, _⟩ => ⟨S640000x128, .f32⟩
  | .hbm, ⟨47, _⟩ => ⟨S640000x128, .f32⟩
  | .hbm, ⟨48, _⟩ => ⟨S_, .f32⟩
  | .hbm, ⟨49, _⟩ => ⟨S40000x128, .f32⟩
  | .hbm, ⟨50, _⟩ => ⟨S640000x1, .i32⟩
  | .hbm, ⟨51, _⟩ => ⟨S40000x128, .f32⟩
  | .hbm, ⟨52, _⟩ => ⟨S1x128, .f32⟩
  | .hbm, ⟨53, _⟩ => ⟨S40000x128, .f32⟩
  | .hbm, ⟨54, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]

class Facts₀ : Prop where
  bcast_S_S40000x1 : S_.BroadcastsInDim S40000x1 (![] : Fin 0 → Fin S40000x1.rank)
  reducesTo_S128_S_d0 : S128.ReducesTo [0] S_
  h_S_ : 0 < S_.numel
  bcast_S_S1 : S_.BroadcastsInDim S1 (![] : Fin 0 → Fin S1.rank)
  bcast_S1_S128_0 : S1.BroadcastsInDim S128 (![0] : Fin 1 → Fin S128.rank)
  bcast_S40000x1_S40000x128_0_1 : S40000x1.BroadcastsInDim S40000x128 (![0, 1] : Fin 2 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  dot_S40000x128_S128x1_S40000x1_1_0_0_1_n_n_wf : DotDims.WF S40000x128 S128x1 S40000x1 [1] [0] [0] [1] [] []
  dot_S40000x128_S128x128_S40000x128_1_0_0_1_n_n_wf : DotDims.WF S40000x128 S128x128 S40000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1

variable [Facts₀]

def dot_S40000x128_S128x1_S40000x1_1_0_0_1_n_n : DotDims S40000x128 S128x1 S40000x1 where
  lhsContracting := [1]
  rhsContracting := [0]
  lhsNonContracting := [0]
  rhsNonContracting := [1]
  lhsBatch := []
  rhsBatch := []
  wf := dot_S40000x128_S128x1_S40000x1_1_0_0_1_n_n_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf

class Facts : Prop extends Facts₀ where

variable [Facts]
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.StoredBlock.lean ====
/-
  What one grid point stores. The body reads a block `x` of 4000 rows, the node weights as a row `nw`, the
  semantic weights as a row `sem` and the projection matrix `w`, and stores, at row `p` and column `q`,

      ∑ k, ((x p k · σ(∑ j, x p j · nw j)) · sem k) · w k q

  where σ is the logistic function: the row's attention is one scalar per row (a lane sum, then σ), broadcast
  back along the row; the semantic weights are broadcast down the rows; the two narrowings to bf16 and the one
  of the product are the identity on extended reals, and the matrix unit's product into a zero accumulator is
  the plain sum over the contracted coordinate.
-/
import proofs.«134077_j29283087024202_2_alg».proof.Proof.Gen.KernelIdeal.Skeleton
import proofs.«134077_j29283087024202_2_alg».proof.Proof.LibRowDims
import Idealize.ShloMosaic.Lib.Pipeline.Value
import Idealize.ShloMosaic.Lib.ValueIdx
import Idealize.ShloMosaic.PureOps.Ideal.Laws

noncomputable section

open scoped BigOperators

namespace Cert.KernelIdeal.StoredBlock

open Cert.KernelIdeal Cert.KernelIdeal.Gen Idealize.ShloMosaic Idealize.ShloMosaic.ValueIdx

/-- A row vector, broadcast down the rows of a block, reads its own lane. -/
theorem row_down (v : (⟨2, ![1, 128]⟩ : Shape).Idx → EReal) (hc : S1x128.ShapeCasts S1x128) (hb : S1x128.Broadcasts S4000x128)
    (p : Fin 4000) (k : Fin 128) :
    broadcastTo S4000x128 (shapeCast S1x128 v hc) hb (ix2 p k) = v (ix2 0 k) := by
  rw [shapeCast_self]
  refine broadcastTo_apply v hb (ix2 p k) (ix2 0 k) (fun a => ?_)
  match a with
  | ⟨0, _⟩ => rfl
  | ⟨1, _⟩ => rfl

/-- A column vector, broadcast along the lanes of a block, reads its own row. -/
theorem col_along (v : (⟨2, ![4000, 1]⟩ : Shape).Idx → EReal) (hb : S4000x1.Broadcasts S4000x128) (p : Fin 4000) (k : Fin 128) :
    broadcastTo S4000x128 v hb (ix2 p k) = v (ix2 p 0) := by
  refine broadcastTo_apply v hb (ix2 p k) (ix2 p 0) (fun a => ?_)
  match a with
  | ⟨0, _⟩ => rfl
  | ⟨1, _⟩ => rfl

/-- A vector of 4000 entries recast as a column keeps entry `p` at row `p`. -/
theorem as_column (v : (⟨1, ![4000]⟩ : Shape).Idx → EReal) (hc : S4000.ShapeCasts S4000x1) (p : Fin 4000) :
    shapeCast S4000x1 v hc (ix2 p 0) = v (ix1 p) := by
  refine shapeCast_apply v hc (ix2 p 0) (ix1 p) ?_
  rw [Shape.rowMajor_val_one, Shape.rowMajor_val_two]
  show p.val = p.val * 1 + 0
  omega

/-- The lane sum of a block at row `p` is the sum of the row's 128 entries. -/
theorem lane_sum (v : FVec Ideal S4000x128 .f32) (h : S4000x128.Reduces [1] S4000) (hφ : FKind.Formats .f32)
    (hacc : (0x00000000#32 : BitVec 32) = 0x00000000#32) (p : Fin 4000) :
    multiReduction .add [1] S4000 v 0x00000000#32 h hφ hacc (ix1 p) = ∑ j : Fin 128, v (ix2 p j) := by
  refine (Ideal.multiReduction_add_single v 0x00000000#32 h hφ hacc (ix1 p)).trans ?_
  refine Finset.sum_congr rfl fun j _ => congrArg v ?_
  funext a
  match a with
  | ⟨0, _⟩ => rfl
  | ⟨1, _⟩ => rfl

/-- The stored block at row `p`, column `q`. -/
theorem stored_apply (x : Vec Ideal S4000x128 .f32) (nw sem : Vec Ideal S1x128 .f32) (w : Vec Ideal S128x128 .f32)
    (p : Fin 4000) (q : Fin 128) :
    k0_pay1 (F := Ideal) x nw sem w (ix2 p q)
      = ∑ k : Fin 128, ((x (ix2 p k) * Ideal.logistic (∑ j : Fin 128, x (ix2 p j) * nw (ix2 0 j))) * sem (ix2 0 k)) * w (ix2 k q) := by
  unfold k0_pay1
  refine (RowDims.matmul_plain_zero_apply none _ _ p q).trans ?_
  refine Finset.sum_congr rfl fun k _ => ?_
  refine congrArg₂ (· * ·) ?_ rfl
  refine congrArg₂ (· * ·) (congrArg₂ (· * ·) rfl ?_) (row_down sem _ _ p k)
  refine (col_along _ _ p k).trans ?_
  refine congrArg Ideal.logistic ?_
  refine (as_column _ _ p).trans ?_
  refine (lane_sum _ _ _ _ p).trans ?_
  refine Finset.sum_congr rfl fun j _ => ?_
  exact congrArg₂ (· * ·) rfl (row_down nw _ _ p j)

end Cert.KernelIdeal.StoredBlock

end
-- ==== Proof.SupportSpec.lean ====
/-
  The projected, attention-weighted features, as one function of the whole arrays: for node `r` and output
  feature `c`,

      support x w nw sem (r, c) = ∑ k, ((x r k · σ(∑ j, x r j · nw j)) · sem k) · w k c,

  with σ the logistic function. Each node's attention is the logistic of its features' inner product with the node
  weights; `sem` scales the features; `w` projects them.
-/
import Idealize.ShloMosaic.PureOps.Ideal
import Idealize.ShloMosaic.Lib.ValueIdx

noncomputable section

open scoped BigOperators

namespace Cert.Support

open Idealize.ShloMosaic Idealize.ShloMosaic.ValueIdx

/-- The support entry of node `r`, output feature `c`. -/
def supportAt (x : (⟨2, ![40000, 128]⟩ : Shape).Idx → EReal) (w : (⟨2, ![128, 128]⟩ : Shape).Idx → EReal)
    (nw sem : Fin 128 → EReal) (r : Fin 40000) (c : Fin 128) : EReal :=
  ∑ k : Fin 128, ((x (ix2 r k) * Ideal.logistic (∑ j : Fin 128, x (ix2 r j) * nw j)) * sem k) * w (ix2 k c)

/-- The support array. -/
def support (x : (⟨2, ![40000, 128]⟩ : Shape).Idx → EReal) (w : (⟨2, ![128, 128]⟩ : Shape).Idx → EReal)
    (nw sem : Fin 128 → EReal) : (⟨2, ![40000, 128]⟩ : Shape).Idx → EReal :=
  fun i => supportAt x w nw sem (i 0) (i 1)

end Cert.Support

end
-- ==== Proof.KernelSupport.lean ====
/-
  The kernel's output array after its ten grid points. Point `t` reads rows `4000 t … 4000 t + 3999` of `x` and,
  whole, the projection matrix, the node-weight row and the semantic-weight row; what it writes back is those
  rows of the support array. The ten blocks tile the 40000 rows, so the array ends as the support array.
-/
import proofs.«134077_j29283087024202_2_alg».proof.Proof.Gen.KernelIdeal.Frame
import proofs.«134077_j29283087024202_2_alg».proof.Proof.StoredBlock
import proofs.«134077_j29283087024202_2_alg».proof.Proof.SupportSpec
import Idealize.ShloMosaic.Lib.Pipeline.Value
import Idealize.ShloMosaic.Lib.ValueIdx

set_option maxRecDepth 16384

noncomputable section

open scoped BigOperators

namespace Cert.KernelIdeal.SupportArray

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The support array of the arrays the region finds: the features, the projection matrix, and the two rows the
    host prepared (node weights, semantic weights). -/
def G (c : Dev nD) : S40000x128.Idx → EReal :=
  Cert.Support.support (V m c main_arg0) (V m c main_arg1) (fun j => V m c main_v11 (ix2 0 j)) (fun k => V m c main_v10 (ix2 0 k))

theorem hz : (![0, 0] : Fin 2 → Nat) = fun _ => 0 := funext fun a => by fin_cases a <;> rfl

/-- Where each window's block sits at a grid point: the feature block and the output block at block row `t`, the
    three small operands whole. -/
theorem idx_facts : ∀ t : Fin cfg0.N, win0_0.index t (0 : Fin 2) = win0_4.index t (0 : Fin 2)
    ∧ win0_0.index t (1 : Fin 2) = 0 ∧ win0_4.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Every block row is some point's. -/
theorem idx_onto : ∀ q0 : Fin 10, ∃ t : Fin cfg0.N, win0_4.index t = ![q0.val, 0] :=
  (by decide +kernel : ∀ q0 : Fin 10, ∃ t : Fin grid0.N, win0_4.index t = ![q0.val, 0])

/-- What point `t` writes back is block `t` of the support array. -/
theorem flushed_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after0_4]
  unfold out0_4
  rw [View.canon_unit_zero hz]
  simp only [View.ld_unit_zero (S := S4000x128) hz, View.ld_unit_zero (S := S1x128) hz, View.ld_unit_zero (S := S128x128) hz]
  obtain ⟨e0, e1, e2, e3, e4, e5, e6, e7, e8⟩ := idx_facts t
  funext j
  show k0_pay1 (F := Ideal) (iblk m c 0 t) (iblk m c 2 t) (iblk m c 3 t) (iblk m c 1 t) j = G m c (((cfg0.win 4).blk t).view.emb j)
  refine (congrArg (k0_pay1 (F := Ideal) (iblk m c 0 t) (iblk m c 2 t) (iblk m c 3 t) (iblk m c 1 t)) (eq_ix2 (n0 := 4000) (n1 := 128) j)).trans ?_
  refine (StoredBlock.stored_apply (iblk m c 0 t) (iblk m c 2 t) (iblk m c 3 t) (iblk m c 1 t) (j 0) (j 1)).trans ?_
  -- each input block is its array read where the output block's rows and columns say
  have hx : ∀ k : Fin 128, iblk m c 0 t (ix2 (j 0) k) = V m c main_arg0 (ix2 ((((cfg0.win 4).blk t).view.emb j) 0) k) := by
    intro k
    show V m c main_arg0 (((cfg0.win 0).blk t).view.emb (ix2 (j 0) k)) = _
    refine congrArg (V m c main_arg0) ?_
    funext a; apply Fin.ext
    match a with
    | ⟨0, _⟩ => show win0_0.index t (0 : Fin 2) * 4000 + 1 * (j 0).val = win0_4.index t (0 : Fin 2) * 4000 + 1 * (j 0).val; omega
    | ⟨1, _⟩ => show win0_0.index t (1 : Fin 2) * 128 + 1 * k.val = k.val; omega
  have hnw : ∀ k : Fin 128, iblk m c 2 t (ix2 0 k) = V m c main_v11 (ix2 0 k) := by
    intro k
    show V m c main_v11 (((cfg0.win 2).blk t).view.emb (ix2 0 k)) = _
    refine congrArg (V m c main_v11) ?_
    funext a; apply Fin.ext
    match a with
    | ⟨0, _⟩ => show win0_2.index t (0 : Fin 2) * 1 + 1 * 0 = 0; omega
    | ⟨1, _⟩ => show win0_2.index t (1 : Fin 2) * 128 + 1 * k.val = k.val; omega
  have hsem : ∀ k : Fin 128, iblk m c 3 t (ix2 0 k) = V m c main_v10 (ix2 0 k) := by
    intro k
    show V m c main_v10 (((cfg0.win 3).blk t).view.emb (ix2 0 k)) = _
    refine congrArg (V m c main_v10) ?_
    funext a; apply Fin.ext
    match a with
    | ⟨0, _⟩ => show win0_3.index t (0 : Fin 2) * 1 + 1 * 0 = 0; omega
    | ⟨1, _⟩ => show win0_3.index t (1 : Fin 2) * 128 + 1 * k.val = k.val; omega
  have hw : ∀ k : Fin 128, iblk m c 1 t (ix2 k (j 1)) = V m c main_arg1 (ix2 k ((((cfg0.win 4).blk t).view.emb j) 1)) := by
    intro k
    show V m c main_arg1 (((cfg0.win 1).blk t).view.emb (ix2 k (j 1))) = _
    refine congrArg (V m c main_arg1) ?_
    funext a; apply Fin.ext
    match a with
    | ⟨0, _⟩ => show win0_1.index t (0 : Fin 2) * 128 + 1 * k.val = k.val; omega
    | ⟨1, _⟩ => show win0_1.index t (1 : Fin 2) * 128 + 1 * (j 1).val = win0_4.index t (1 : Fin 2) * 128 + 1 * (j 1).val; omega
  simp only [hx, hnw, hsem, hw]
  rfl

/-- An index of the array is in point `t`'s block iff each coordinate is in the block's range on its axis. -/
theorem mem_blk (t : Fin cfg0.N) (i : S40000x128.Idx) :
    i ∈ ((cfg0.win 4).blk t).view.set ↔ ∀ a : Fin 2, win0_4.index t a * S4000x128.size a ≤ (i a).val ∧ (i a).val < win0_4.index t a * S4000x128.size a + S4000x128.size a := by
  show i ∈ ((View.whole main_v12).slice (win0_4.rect t)).set ↔ _
  rw [View.set_slice_whole, Rect.mem_set_unit]
  exact Iff.rfl

/-- Every index of the array lies in the block of the point its row selects. -/
theorem covered (i : S40000x128.Idx) :
    ∃ t : Fin cfg0.N, (cfg0.win 4).flush t = true ∧ i ∈ ((cfg0.win 4).blk t).view.set := by
  have hi0 : (i 0).val < 40000 := (i 0).isLt
  have hi1 : (i 1).val < 128 := (i 1).isLt
  obtain ⟨t, ht⟩ := idx_onto ⟨(i 0).val / 4000, by omega⟩
  have q0 : win0_4.index t (0 : Fin 2) = (i 0).val / 4000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 4000 ≤ (i 0).val ∧ (i 0).val < win0_4.index t (0 : Fin 2) * 4000 + 4000; omega
  | ⟨1, _⟩ => show win0_4.index t (1 : Fin 2) * 128 ≤ (i 1).val ∧ (i 1).val < win0_4.index t (1 : Fin 2) * 128 + 128; omega

/-- The output array after the region is the support array. -/
theorem final (c : Dev nD) : (dats m 0 c).arrAt 4 cfg0.N = G m c :=
  (dats m 0 c).arrAt_eq_of_cover 4 (G m c) (fun t _ => flushed_eq m c t) covered

end Cert.KernelIdeal.SupportArray

end
-- ==== Proof.KernelValue.lean ====
/-
  The kernel program's result as one function of its arguments.

  Before the region the host prepares two rows: the node weights transposed from a column to a row, and the
  semantic weights — the softmax of `sem_w` — laid out as a row. After the region the host aggregates over the
  edges: it gathers the support rows the (wrapped) sources name, scales each by its edge value, adds them into
  the rows the destinations name, and adds the bias. The gathered rows are widened from bf16, which changes no
  extended real.
-/
import proofs.«134077_j29283087024202_2_alg».proof.Proof.Gen.KernelIdeal.Frame
import proofs.«134077_j29283087024202_2_alg».proof.Proof.KernelSupport
import Idealize.ShloMosaic.Lib.StableHlo.Run
import Idealize.ShloMosaic.Lib.Pipeline.Value
import Idealize.ShloMosaic.Lib.ValueIdx

set_option maxRecDepth 16384

noncomputable section

open scoped BigOperators

namespace Cert.KernelIdeal.Result

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

/-- The semantic attention: the softmax of the semantic weights, as the host computes it (shifted by the
    maximum, exponentiated, divided by the sum). -/
def semAtt (s : FVec Ideal S128 .f32) : FVec Ideal S128 .f32 :=
  Host.divf
    (Host.exp (subf s (broadcastInDim S128 ![0] bcast_S1_S128_0 (broadcastInDim S1 ![] bcast_S_S1
      (maximumf (constant S_ .f32 0xFF800000#32) (Host.reduce FloatOps.maximumf s (constant S_ .f32 0xFF800000#32) reducesTo_S128_S_d0 h_S_))))))
    (broadcastInDim S128 ![0] bcast_S1_S128_0 (broadcastInDim S1 ![] bcast_S_S1
      (Host.reduceAdd
        (Host.exp (subf s (broadcastInDim S128 ![0] bcast_S1_S128_0 (broadcastInDim S1 ![] bcast_S_S1
          (maximumf (constant S_ .f32 0xFF800000#32) (Host.reduce FloatOps.maximumf s (constant S_ .f32 0xFF800000#32) reducesTo_S128_S_d0 h_S_))))))
        (constant S_ .f32 0x00000000#32) reducesTo_S128_S_d0 h_S_)))

/-- The aggregation over the edges of a support array: gather by the wrapped sources, scale by the edge values,
    add into the destinations' rows, add the bias. -/
def aggregate (sup : FVec Ideal S40000x128 .f32) (bias : FVec Ideal S128 .f32) (adj : FVec Ideal S640000 .f32)
    (src dst : IVec S640000 32) : FVec Ideal S40000x128 .f32 :=
  addf
    (Host.scatterAdd scatter_S40000x128_S640000x1_S640000x128_1_0_0_1
      (broadcastInDim S40000x128 ![] bcast_S_S40000x128 (constant S_ .f32 0x00000000#32))
      (broadcastInDim S640000x1 ![0] bcast_S640000_S640000x1_0 dst)
      (mulf
        (Host.gather gather_S40000x128_S640000x1_S640000x128_1_0_n_n_0_1_1128 sup
          (broadcastInDim S640000x1 ![0] bcast_S640000_S640000x1_0
            (select (cmpi .slt src (broadcastInDim S640000 ![] bcast_S_S640000 (constantI S_ 32 0#32)))
              (addi src (broadcastInDim S640000 ![] bcast_S_S640000 (constantI S_ 32 40000#32))) src)))
        (broadcastInDim S640000x128 ![0, 1] bcast_S640000x1_S640000x128_0_1
          (broadcastInDim S640000x1 ![0] bcast_S640000_S640000x1_0 adj))))
    (broadcastInDim S40000x128 ![0, 1] bcast_S1x128_S40000x128_0_1 (broadcastInDim S1x128 ![1] bcast_S128_S1x128_1 bias))

/-- Widening from bf16 changes no extended real. -/
theorem widen_id {s : Shape} (v : FVec Ideal s .bf16) (h : FTy.bits .bf16 < FTy.bits .f32) :
    (extf (F := Ideal) .f32 v h : FVec Ideal s .f32) = v := rfl

variable (m : (ℓ : Loc nD τ sig) → Buf (Elt Ideal) ℓ)

/-- The node-weight row the region finds is the node-weight column, transposed. -/
theorem nwRow_apply (c : Dev nD) (j : Fin 128) :
    (V m c main_v11 : S1x128.Idx → EReal) (ix2 0 j) = (m ((c : Thread nD τ).loc main_arg2) : S128x1.Idx → EReal) (ix2 j 0) := by
  have e : (V m c main_v11 : S1x128.Idx → EReal)
      = transpose S1x128 [1, 0] (m ((c : Thread nD τ).loc main_arg2)) transposes_S128x1_S1x128_1_0 := by
    show StableHlo.after hostOps0 (fun b => m (c, b)) (Proc.devRef .tc main_v11) = _
    after_results
  rw [e]
  refine transpose_apply _ _ _ (ix2 0 j) (ix2 j 0) (fun b => ?_)
  match b with
  | ⟨0, _⟩ => rfl
  | ⟨1, _⟩ => rfl

/-- The semantic-weight row the region finds is the semantic attention, laid out as a row. -/
theorem semRow_apply (c : Dev nD) (k : Fin 128) :
    (V m c main_v10 : S1x128.Idx → EReal) (ix2 0 k) = semAtt (m ((c : Thread nD τ).loc main_arg3)) (ix1 k) := by
  have e : (V m c main_v10 : S1x128.Idx → EReal)
      = shapeCast S1x128 (semAtt (m ((c : Thread nD τ).loc main_arg3))) shapeCasts_S128_S1x128 := by
    show StableHlo.after hostOps0 (fun b => m (c, b)) (Proc.devRef .tc main_v10) = _
    after_results
    rfl
  rw [e]
  refine shapeCast_apply _ _ (ix2 0 k) (ix1 k) ?_
  rw [Shape.rowMajor_val_one, Shape.rowMajor_val_two]
  show k.val = 0 * 128 + k.val
  omega

/-- The support array the region leaves, over the program's arguments. -/
theorem G_eq (c : Dev nD) :
    SupportArray.G m c = Cert.Support.support (m ((c : Thread nD τ).loc main_arg0)) (m ((c : Thread nD τ).loc main_arg1))
      (fun j => (m ((c : Thread nD τ).loc main_arg2) : S128x1.Idx → EReal) (ix2 j 0))
      (fun k => semAtt (m ((c : Thread nD τ).loc main_arg3)) (ix1 k)) := by
  unfold SupportArray.G
  rw [V_main_arg0, V_main_arg1]
  congr 1
  · funext j; exact nwRow_apply m c j
  · funext k; exact semRow_apply m c k

set_option maxHeartbeats 2000000 in
/-- What the host leaves in the result buffer after the region: the aggregation of the support array. -/
theorem result_eq (c : Dev nD) :
    (Pipeline.afterTail₀ cfgs (dats m) 0 (V0 m) [hostOps1] c main_v29 : S40000x128.Idx → EReal)
      = aggregate (SupportArray.G m c) (m ((c : Thread nD τ).loc main_arg4)) (m ((c : Thread nD τ).loc main_arg5))
          (m ((c : Thread nD τ).loc main_arg6)) (m ((c : Thread nD τ).loc main_arg7)) := by
  unfold Pipeline.afterTail₀
  show StableHlo.after hostOps1 _ (Proc.devRef .tc main_v29) = _
  after_results_simp
  rw [Pipeline.withArrays_of_ne _ c (V0 m c) _ main_arg4 (by exact (by decide : ∀ w, Pipeline.arrRef spec0 w ≠ main_arg4)),
    Pipeline.withArrays_of_ne _ c (V0 m c) _ main_arg5 (by exact (by decide : ∀ w, Pipeline.arrRef spec0 w ≠ main_arg5)),
    Pipeline.withArrays_of_ne _ c (V0 m c) _ main_arg6 (by exact (by decide : ∀ w, Pipeline.arrRef spec0 w ≠ main_arg6)),
    Pipeline.withArrays_of_ne _ c (V0 m c) _ main_arg7 (by exact (by decide : ∀ w, Pipeline.arrRef spec0 w ≠ main_arg7))]
  rw [show Pipeline.withArrays (cfgs 0).spec c (V0 m c) (fun w => (dats m 0 c).arrAt w (cfgs 0).N) (Proc.devRef .tc main_v12)
      = (dats m 0 c).arrAt 4 cfg0.N from Pipeline.withArrays_arr spec0 launch0.win.arr_inj c _ _ 4]
  rw [SupportArray.final m c, widen_id]
  rw [show V0 m c (Proc.devRef .tc main_arg4) = m ((c : Thread nD τ).loc main_arg4) from V_main_arg4 m c,
    show V0 m c (Proc.devRef .tc main_arg5) = m ((c : Thread nD τ).loc main_arg5) from V_main_arg5 m c,
    show V0 m c (Proc.devRef .tc main_arg6) = m ((c : Thread nD τ).loc main_arg6) from V_main_arg6 m c,
    show V0 m c (Proc.devRef .tc main_arg7) = m ((c : Thread nD τ).loc main_arg7) from V_main_arg7 m c]
  rfl

/-- The program's result on core `c`: the aggregation of the support array of the arguments. -/
def value (c : Dev nD) : S40000x128.Idx → EReal :=
  aggregate
    (Cert.Support.support (m ((c : Thread nD τ).loc main_arg0)) (m ((c : Thread nD τ).loc main_arg1))
      (fun j => (m ((c : Thread nD τ).loc main_arg2) : S128x1.Idx → EReal) (ix2 j 0))
      (fun k => semAtt (m ((c : Thread nD τ).loc main_arg3)) (ix1 k)))
    (m ((c : Thread nD τ).loc main_arg4)) (m ((c : Thread nD τ).loc main_arg5))
    (m ((c : Thread nD τ).loc main_arg6)) (m ((c : Thread nD τ).loc main_arg7))

/-- Every weakly fair execution of the program ends with the result buffer at `value` and the arguments as
    launched: the frame run, its post read at the result and at each argument. -/
theorem run (ρ : Dev nD → PrngReg) :
    θ_run defs (onTc (τ := τ) (main (F := Ideal))) ⟨m, fun _ => 0, ρ⟩ (fun r => ∀ c : Dev nD,
      r.2.mem ((c.tc : Thread nD τ).loc main_v29) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v29 (Pipeline.mem_restRefs_of main_v29 (by decide) (by decide))).trans
        ((result_eq m c).trans (by rw [G_eq]; rfl)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Result

end
-- ==== Proof.Consts.lean ====
/-
  The one float literal the two programs' arithmetic needs evaluated: the word 0x3F800000 is the number one.
-/
import Idealize.ShloMosaic.PureOps.Ideal

noncomputable section

namespace Cert.Consts

open Idealize.ShloMosaic

/-- The f32 word `0x3F800000` denotes `1`. -/
theorem ofBits_one : Ideal.ofBits .f32 0x3F800000#32 = 1 := by
  simp [Ideal.ofBits, Ideal.ieee, -EReal.coe_mul]; norm_num

end Cert.Consts

end
-- ==== Proof.ReferenceSupport.lean ====
/-
  The reference's support array. It takes each node's attention from a matrix product of the features with the
  node-weight column, passed through `1 / (1 + exp (−·))` — the logistic function on every extended real —,
  scales the features by it and by the softmax of the semantic weights, and projects them by a second matrix
  product: entry by entry the support array of SupportSpec.
-/
import proofs.«134077_j29283087024202_2_alg».proof.Proof.Gen.ReferenceIdeal.Read
import proofs.«134077_j29283087024202_2_alg».proof.Proof.SupportSpec
import proofs.«134077_j29283087024202_2_alg».proof.Proof.Consts
import Idealize.ShloMosaic.Lib.ValueIdx
import Idealize.ShloMosaic.PureOps.Ideal.Laws

noncomputable section

open scoped BigOperators

namespace Cert.ReferenceIdeal.RefSupport

open Cert.ReferenceIdeal Cert.ReferenceIdeal.Gen Cert.ReferenceIdeal.Read Idealize.ShloMosaic Idealize.ShloMosaic.ValueIdx

/-- The node attention at row `r`: the logistic of the row's inner product with the node weights. -/
theorem att_apply (x : FVec Ideal S40000x128 .f32) (nw : FVec Ideal S128x1 .f32) (r : Fin 40000) :
    val_main_v6 (F := Ideal) x nw (ix2 r 0) = Ideal.logistic (∑ j : Fin 128, x (ix2 r j) * nw (ix2 j 0)) := by
  rw [val_main_v6_apply, val_main_v5_apply, val_main_cst_0_apply, val_main_v4_apply, val_main_v3_apply, val_main_cst_apply,
    val_main_v2_apply, val_main_v1_apply, val_main_v0_apply]
  have hl : ∀ k : Fin 128, lidx_main_v0 (ix2 r 0) k = ix2 r k := fun k =>
    funext fun a => Fin.ext (by match a with | ⟨0, _⟩ => rfl | ⟨1, _⟩ => rfl)
  have hr : ∀ k : Fin 128, ridx_main_v0 (ix2 r 0) k = ix2 k 0 := fun k =>
    funext fun a => Fin.ext (by match a with | ⟨0, _⟩ => rfl | ⟨1, _⟩ => rfl)
  simp only [hl, hr]
  -- 1 / (1 + exp (−s)) with both ones the literal word for one: the logistic function of s
  show Ideal.div (Ideal.ofBits .f32 0x3F800000#32) (Ideal.ofBits .f32 0x3F800000#32 + Ideal.exp (-(∑ j : Fin 128, x (ix2 r j) * nw (ix2 j 0)))) = _
  rw [Cert.Consts.ofBits_one]
  rfl

/-- The reference's support array is the support array of its arguments. -/
theorem support_eq (x : FVec Ideal S40000x128 .f32) (w : FVec Ideal S128x128 .f32) (nw : FVec Ideal S128x1 .f32)
    (s : FVec Ideal S128 .f32) :
    val_main_v22 (F := Ideal) x w nw s
      = Cert.Support.support x w (fun j => nw (ix2 j 0)) (fun k => val_main_v16 (F := Ideal) s (ix1 k)) := by
  funext i
  obtain ⟨r, c, rfl⟩ : ∃ (r : Fin 40000) (c : Fin 128), i = ix2 r c := ⟨i 0, i 1, eq_ix2 i⟩
  rw [val_main_v22_apply]
  show _ = ∑ k : Fin 128, ((x (ix2 r k) * Ideal.logistic (∑ j : Fin 128, x (ix2 r j) * nw (ix2 j 0))) * val_main_v16 (F := Ideal) s (ix1 k)) * w (ix2 k c)
  refine Finset.sum_congr rfl fun k _ => ?_
  have hl : lidx_main_v22 (ix2 r c) k = ix2 r k :=
    funext fun a => Fin.ext (by match a with | ⟨0, _⟩ => rfl | ⟨1, _⟩ => rfl)
  have hr : ridx_main_v22 (ix2 r c) k = ix2 k c :=
    funext fun a => Fin.ext (by match a with | ⟨0, _⟩ => rfl | ⟨1, _⟩ => rfl)
  rw [hl, hr, val_main_v21_apply, val_main_v18_apply, val_main_v17_apply, val_main_v20_apply, val_main_v19_apply]
  have h17 : idx_main_v17 (ix2 r k) = ix2 r 0 :=
    funext fun a => Fin.ext (by match a with | ⟨0, _⟩ => rfl | ⟨1, _⟩ => rfl)
  have h19 : idx_main_v19 (idx_main_v20 (ix2 r k)) = ix1 k :=
    funext fun a => Fin.ext (by match a with | ⟨0, _⟩ => rfl)
  rw [h17, h19, att_apply]
  rfl

end Cert.ReferenceIdeal.RefSupport

end
-- ==== Proof.lean ====
/-
  A graph layer with node-level and semantic-level attention: each node's features are scaled by the node's
  attention — the logistic of the features' inner product with the node weights — and by the softmax of the
  semantic weights, projected by a weight matrix (the support array), then aggregated over the edges (gather by
  source, scale by the edge value, add into the destination's row) and shifted by the bias.

  The kernel computes the support array in ten row blocks inside one pallas_call, the attention by a lane sum and
  the projection on the matrix unit through bf16, and leaves the aggregation to the host; the reference does
  everything on the host, the attention and the projection as matrix products. On extended reals the narrowings
  and widenings are the identity, the lane sum and both matrix products are plain sums over the contracted
  coordinate, and `1 / (1 + exp (−s))` is the logistic function, so both programs end at the aggregation of ONE
  support array (Proof/SupportSpec.lean): the kernel's by Proof/StoredBlock.lean (one block), Proof/KernelSupport.lean
  (the ten blocks tile the array) and Proof/KernelValue.lean (the host lines around the region); the reference's
  by Proof/ReferenceSupport.lean. The aggregation itself — the same host operations in both programs — is never
  opened. No step uses that the inputs are finite.
-/
import proofs.«134077_j29283087024202_2_alg».proof.Defs
import proofs.«134077_j29283087024202_2_alg».proof.Proof.Gen.Kernel
import proofs.«134077_j29283087024202_2_alg».proof.Proof.Gen.Kernel.Skeleton
import proofs.«134077_j29283087024202_2_alg».proof.Proof.Gen.Kernel.Launch
import proofs.«134077_j29283087024202_2_alg».proof.Proof.Gen.Kernel.Points
import proofs.«134077_j29283087024202_2_alg».proof.Proof.Gen.Kernel.Frame
import proofs.«134077_j29283087024202_2_alg».proof.Proof.Gen.KernelIdeal
import proofs.«134077_j29283087024202_2_alg».proof.Proof.Gen.KernelIdeal.Skeleton
import proofs.«134077_j29283087024202_2_alg».proof.Proof.Gen.KernelIdeal.Launch
import proofs.«134077_j29283087024202_2_alg».proof.Proof.Gen.KernelIdeal.Points
import proofs.«134077_j29283087024202_2_alg».proof.Proof.Gen.KernelIdeal.Frame
import proofs.«134077_j29283087024202_2_alg».proof.Proof.Gen.ReferenceIdeal
import proofs.«134077_j29283087024202_2_alg».proof.Proof.Gen.Pre_finite_inputs
import proofs.«134077_j29283087024202_2_alg».proof.Proof.Gen.ReferenceIdeal.Run
import proofs.«134077_j29283087024202_2_alg».proof.Proof.Gen.ReferenceIdeal.Read
import proofs.«134077_j29283087024202_2_alg».proof.Proof.KernelValue
import proofs.«134077_j29283087024202_2_alg».proof.Proof.ReferenceSupport
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The reference's result is the aggregation of the support array of its arguments: its support array is that
    one (entry by entry), its softmax of the semantic weights and its aggregation over the edges are the kernel
    program's host operations, operation for operation. -/
theorem reference_value
    (x0 : (⟨Cert.ReferenceIdeal.S40000x128, .f32⟩ : BufTy).Contents (Elt Ideal))
    (x1 : (⟨Cert.ReferenceIdeal.S128x128, .f32⟩ : BufTy).Contents (Elt Ideal))
    (x2 : (⟨Cert.ReferenceIdeal.S128x1, .f32⟩ : BufTy).Contents (Elt Ideal))
    (x3 x4 : (⟨Cert.ReferenceIdeal.S128, .f32⟩ : BufTy).Contents (Elt Ideal))
    (x5 : (⟨Cert.ReferenceIdeal.S640000, .f32⟩ : BufTy).Contents (Elt Ideal))
    (x6 x7 : (⟨Cert.ReferenceIdeal.S640000, .i32⟩ : BufTy).Contents (Elt Ideal)) :
    Cert.ReferenceIdeal.Read.val_main_v38 (F := Ideal) x0 x1 x2 x3 x4 x5 x6 x7
      = Cert.KernelIdeal.Result.aggregate
          (Cert.Support.support x0 x1 (fun j => x2 (ix2 j 0)) (fun k => Cert.KernelIdeal.Result.semAtt x3 (ix1 k)))
          x4 x5 x6 x7 := by
  unfold Cert.ReferenceIdeal.Read.val_main_v38 Cert.ReferenceIdeal.Read.val_main_v35 Cert.ReferenceIdeal.Read.val_main_v32
    Cert.ReferenceIdeal.Read.val_main_v29
  rw [Cert.ReferenceIdeal.RefSupport.support_eq]
  rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at the aggregation of the support array of the (agreeing) arguments. -/
theorem algebraic : Cert.algebraic_KernelIdeal_ReferenceIdeal := by
  intro m ρ m' ρ' _ hagree
  refine ⟨fun c => Cert.KernelIdeal.Result.value m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [h0, h1, h2, h3, h4, h5, h6, h7]
  exact (Cert.ReferenceIdeal.Read.val_main_v38_eq _ _ _ _ _ _ _ _).trans (reference_value _ _ _ _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
